-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S5000x128 : Shape := ⟨2, ![5000, 128]⟩
abbrev S100000x1 : Shape := ⟨2, ![100000, 1]⟩
abbrev S1600000x128 : Shape := ⟨2, ![1600000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 75
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S1x128, .f32⟩
  | .hbm, ⟨34, _⟩ => ⟨S100000x128, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S1x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S1x128, .f32⟩
  | .hbm, ⟨72, _⟩ => ⟨S100000x128, .f32⟩
  | .hbm, ⟨73, _⟩ => ⟨S1x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S100000x64, .f32⟩
  | 12 => ⟨S1x64, .f32⟩
  | 13 => ⟨S100000x64, .f32⟩
  | 14 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_cst : Ref sig .tc := ⟨.hbm, 77, rfl⟩
abbrev main_call1_v0 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_18 : Ref sig .tc := ⟨.hbm, 102, rfl⟩
abbrev main_v67 : Ref sig .tc := ⟨.hbm, 103, rfl⟩
abbrev main_v68 : Ref sig .tc := ⟨.hbm, 104, rfl⟩
abbrev main_c_19 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_20 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_21 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_22 : Ref sig .tc := ⟨.hbm, 121, rfl⟩
abbrev main_v82 : Ref sig .tc := ⟨.hbm, 122, rfl⟩
abbrev main_v83 : Ref sig .tc := ⟨.hbm, 123, rfl⟩
abbrev main_cst_23 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_24 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_25 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Net.lean ====
/-
  The network this certificate is about, as one function of its eleven argument arrays.

  Two dense layers around two graph-convolution layers with initial residual and identity mapping over a graph of
  100000 nodes and 1600000 edges (`src`, `dst`):

    h₀ = relu (feat · w₁ + b₁)
    conv β h x₀ W b = (1 - β) · f + β · (f · W) + b,   f = 0.8 · (d_in ⊙ A (d_out ⊙ h)) + 0.2 · x₀
    out = conv β₂ (relu (conv β₁ h₀ h₀ cw₁ cb₁)) h₀ cw₂ cb₂ · w₂ + b₂

  where `A` sums, into each destination node, the rows of its incoming edges' source nodes, and `d_out`, `d_in` are the
  inverse square roots of the out- and in-degrees (at least one). Every piece is written with the host operations the
  reference program applies, so that the reference's composed term IS `net` of its arguments by unfolding.
-/
import proofs.«140979_j20710332301833_1_alg».proof.Proof.Gen.ReferenceIdeal

noncomputable section

namespace Cert.Net

open Cert.ReferenceIdeal Cert.ReferenceIdeal.Gen Idealize.ShloMosaic

variable {F : FTy → Type} [FloatOps F]

/-- Node features, `[100000, 128]`. -/
abbrev Feat (F : FTy → Type) := (⟨S100000x128, .f32⟩ : BufTy).Contents (Elt F)
/-- One number per node. -/
abbrev PerNode (F : FTy → Type) := (⟨S100000, .f32⟩ : BufTy).Contents (Elt F)
/-- One node number per edge. -/
abbrev Edges (F : FTy → Type) := (⟨S1600000, .i32⟩ : BufTy).Contents (Elt F)
/-- A square weight matrix. -/
abbrev Mat (F : FTy → Type) := (⟨S128x128, .f32⟩ : BufTy).Contents (Elt F)
/-- A bias vector. -/
abbrev Bias (F : FTy → Type) := (⟨S128, .f32⟩ : BufTy).Contents (Elt F)

/-- The scalar `v` in every entry of a feature array. -/
def splat (v : BitVec 32) : Feat F :=
  broadcastInDim S100000x128 ![] bcast_S_S100000x128 (constant S_ .f32 v)

/-- A bias vector added to every row. -/
def rows (b : Bias F) : Feat F :=
  broadcastInDim S100000x128 ![0, 1] bcast_S1x128_S100000x128_0_1 (broadcastInDim S1x128 ![1] bcast_S128_S1x128_1 b)

/-- A per-node number repeated along its node's row. -/
def cols (d : PerNode F) : Feat F :=
  broadcastInDim S100000x128 ![0, 1] bcast_S100000x1_S100000x128_0_1 (broadcastInDim S100000x1 ![0] bcast_S100000_S100000x1_0 d)

/-- `max x 0`, entry by entry. -/
def relu (x : Feat F) : Feat F := maximumf x (splat 0x00000000#32)

/-- `x · w + b`. -/
def lin (x : Feat F) (w : Mat F) (b : Bias F) : Feat F :=
  addf (Host.dotGeneral dot_S100000x128_S128x128_S100000x128_1_0_0_1_n_n none x w) (rows b)

/-- `max(deg, 1) ^ (-1/2)`, `deg` the number of edges whose endpoint `e` is the node. -/
def invSqrtDeg (e : Edges F) : PerNode F :=
  Host.powf
    (maximumf
      (Host.scatterAdd scatter_S100000_S1600000x1_S1600000_n_0_0_1 (broadcastInDim S100000 ![] bcast_S_S100000 (constant S_ .f32 0x00000000#32))
        (broadcastInDim S1600000x1 ![0] bcast_S1600000_S1600000x1_0 e) (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- Each edge carries its source node's row to its destination node, where the rows are summed (a negative source
    number counts from the end). -/
def spmm (h : Feat F) (src dst : Edges F) : Feat F :=
  Host.scatterAdd scatter_S100000x128_S1600000x1_S1600000x128_1_0_0_1 (splat 0x00000000#32)
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The normalised aggregate of `h`'s rows over the graph, before the in-degree scaling. -/
def aggregate (h : Feat F) (src dst : Edges F) : Feat F :=
  spmm (mulf h (cols (invSqrtDeg src))) src dst

/-- The initial-residual blend `0.8 · (agg ⊙ d_in) + 0.2 · x₀`. -/
def blend (agg x0 : Feat F) (din : PerNode F) : Feat F :=
  addf (mulf (splat 0x3F4CCCCD#32) (mulf agg (cols din))) (mulf (splat 0x3E4CCCCD#32) x0)

/-- The identity-mapped linear step `c₁ · f + c₂ · (f · W) + b`. -/
def mix (c1 c2 : BitVec 32) (f : Feat F) (w : Mat F) (b : Bias F) : Feat F :=
  addf (addf (mulf (splat c1) f) (mulf (splat c2) (Host.dotGeneral dot_S100000x128_S128x128_S100000x128_1_0_0_1_n_n none f w))) (rows b)

/-- What one convolution layer leaves, from the aggregate `agg`, the initial features `x0` and the in-degree scale. -/
def post (c1 c2 : BitVec 32) (agg x0 : Feat F) (din : PerNode F) (w : Mat F) (b : Bias F) : Feat F :=
  mix c1 c2 (blend agg x0 din) w b

/-- The output layer `x · w₂ + b₂`, `[100000, 64]`. -/
def outLayer (x : Feat F) (w : (⟨S128x64, .f32⟩ : BufTy).Contents (Elt F)) (b : (⟨S64, .f32⟩ : BufTy).Contents (Elt F)) :
    (⟨S100000x64, .f32⟩ : BufTy).Contents (Elt F) :=
  addf (Host.dotGeneral dot_S100000x128_S128x64_S100000x64_1_0_0_1_n_n none x w)
    (broadcastInDim S100000x64 ![0, 1] bcast_S1x64_S100000x64_0_1 (broadcastInDim S1x64 ![1] bcast_S64_S1x64_1 b))

/-- The first dense layer. -/
def hidden (feat : Feat F) (w1 : Mat F) (b1 : Bias F) : Feat F := relu (lin feat w1 b1)

/-- The first convolution layer (coefficients `1 - ln 2`, `ln 2` as f32 words), with its activation. -/
def conv1 (h0 : Feat F) (src dst : Edges F) (cw1 : Mat F) (cb1 : Bias F) : Feat F :=
  relu (post 0x3E9D1BD0#32 0x3F317218#32 (aggregate h0 src dst) h0 (invSqrtDeg dst) cw1 cb1)

/-- The second convolution layer (coefficients `1 - ln 1.5`, `ln 1.5` as f32 words), no activation. -/
def conv2 (x h0 : Feat F) (src dst : Edges F) (cw2 : Mat F) (cb2 : Bias F) : Feat F :=
  post 0x3F183370#32 0x3ECF991F#32 (aggregate x src dst) h0 (invSqrtDeg dst) cw2 cb2

/-- The whole network. -/
def net (feat : Feat F) (src dst : Edges F) (w1 : Mat F) (b1 : Bias F) (cw1 : Mat F) (cb1 : Bias F) (cw2 : Mat F) (cb2 : Bias F)
    (w2 : (⟨S128x64, .f32⟩ : BufTy).Contents (Elt F)) (b2 : (⟨S64, .f32⟩ : BufTy).Contents (Elt F)) :
    (⟨S100000x64, .f32⟩ : BufTy).Contents (Elt F) :=
  outLayer (conv2 (conv1 (hidden feat w1 b1) src dst cw1 cb1) (hidden feat w1 b1) src dst cw2 cb2) w2 b2

end Cert.Net

end
-- ==== Proof.LibRowCol.lean ====
/-
  Rows, columns and scalars spread over a matrix, read at an entry.

  The keepdims forms a dense layer and a per-row scaling go through: a vector made a one-row or a one-column matrix
  (by a cast or by `broadcast_in_dim`), and a one-row, one-column or scalar operand broadcast to `[a, b]`. Each reads,
  at `(p, c)`, the operand at the coordinates it has.
-/
import Idealize.ShloMosaic.Lib.ValueIdx
import Idealize.ShloMosaic.Lib.ValueLayout
import Idealize.ShloMosaic.Lib.Pipeline.Value

noncomputable section

namespace Cert.Lib.RowCol

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar spread over any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  congrArg x (funext fun ax => ax.elim0)

/-- A `[b]` vector placed as the one row of `[1, b]`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[a]` vector placed as the one column of `[a, 1]`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-row matrix repeated down `a` rows. -/
theorem broadcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A one-column matrix repeated across `b` columns. -/
theorem broadcastInDim_a1_ab_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowCol

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.NetEntries.lean ====
/-
  The network's layers read at an entry, over the extended reals.

  A dense layer's entry `(r, q)` is the sum over `k` of the input row `r` against the weight column `q`, plus the
  bias at `q`; the blend's entry is `0.8 · (agg · d_in r) + 0.2 · x₀`; the identity-mapped step's entry is
  `c₁ · f + c₂ · ∑ₖ f(r, k) · W(k, q)`, plus the bias. Each is stated as a function of ROW ACCESSORS, so that a row
  block of the array and the whole array are compared through the same expression.
-/
import proofs.«140979_j20710332301833_1_alg».proof.Proof.Net
import proofs.«140979_j20710332301833_1_alg».proof.Proof.LibRowCol
import proofs.«140979_j20710332301833_1_alg».proof.Proof.LibPlainDot
import Idealize.ShloMosaic.PureOps.Ideal.Laws

noncomputable section

namespace Cert.Net

open Cert.ReferenceIdeal Cert.ReferenceIdeal.Gen Idealize.ShloMosaic Idealize.ShloMosaic.ValueIdx Cert.Lib.RowCol Cert.Lib

/-! ## The entry formulas, over a row and a column accessor -/

/-- `∑ₖ row k · W(k, q) + b`: one entry of a dense layer, from the input's row. -/
def denseEntry {N : ℕ} (row : Fin 128 → EReal) (W : (⟨2, ![128, N]⟩ : Shape).Idx → EReal) (b : EReal) (q : Fin N) : EReal :=
  (∑ k : Fin 128, row k * W (ix2 k q)) + b

/-- `0.8 · (a · d) + 0.2 · x` with the two f32 words read as they stand. -/
def blendEntry (a d x : EReal) : EReal :=
  Ideal.ofBits .f32 0x3F4CCCCD#32 * (a * d) + Ideal.ofBits .f32 0x3E4CCCCD#32 * x

/-- `c₁ · f q + c₂ · ∑ₖ f k · W(k, q) + b`: one entry of the identity-mapped step, from the blended row `f`. -/
def mixEntry (c1 c2 : BitVec 32) (f : Fin 128 → EReal) (W : (⟨2, ![128, 128]⟩ : Shape).Idx → EReal) (b : EReal) (q : Fin 128) : EReal :=
  (Ideal.ofBits .f32 c1 * f q + Ideal.ofBits .f32 c2 * ∑ k : Fin 128, f k * W (ix2 k q)) + b

/-! ## The spreading operations at an entry -/

theorem splat_apply (v : BitVec 32) (i : S100000x128.Idx) : splat (F := Ideal) v i = Ideal.ofBits .f32 v := rfl

theorem rows_apply (b : Bias Ideal) (r : Fin 100000) (q : Fin 128) : rows b (ix2 r q) = b (ix1 q) := by
  unfold rows
  rw [broadcastInDim_1b_ab_apply, broadcastInDim_b_1b_apply]

theorem cols_apply (d : PerNode Ideal) (r : Fin 100000) (q : Fin 128) : cols d (ix2 r q) = d (ix1 r) := by
  unfold cols
  rw [broadcastInDim_a1_ab_apply, broadcastInDim_a_a1_apply]

/-- The reference's product record is the plain `100000×128 · 128×128` one. -/
theorem dot128_eq : dot_S100000x128_S128x128_S100000x128_1_0_0_1_n_n = DotDims.plain 100000 128 128 := rfl

/-- The reference's output product record is the plain `100000×128 · 128×64` one. -/
theorem dot64_eq : dot_S100000x128_S128x64_S100000x64_1_0_0_1_n_n = DotDims.plain 100000 128 64 := rfl

/-! ## The layers at an entry -/

theorem lin_apply (X : Feat Ideal) (W : Mat Ideal) (b : Bias Ideal) (r : Fin 100000) (q : Fin 128) :
    lin X W b (ix2 r q) = denseEntry (fun k => X (ix2 r k)) W (b (ix1 q)) q := by
  unfold lin denseEntry
  rw [addf_apply, rows_apply]
  simp only [Host.dotGeneral]
  rw [dot128_eq, PlainDot.dotGeneral_apply]

theorem relu_apply (x : Feat Ideal) (i : S100000x128.Idx) : relu x i = max (x i) (Ideal.ofBits .f32 0x00000000#32) := rfl

theorem hidden_apply (X : Feat Ideal) (W : Mat Ideal) (b : Bias Ideal) (r : Fin 100000) (q : Fin 128) :
    hidden X W b (ix2 r q) = max (denseEntry (fun k => X (ix2 r k)) W (b (ix1 q)) q) (Ideal.ofBits .f32 0x00000000#32) := by
  unfold hidden
  rw [relu_apply, lin_apply]

theorem blend_apply (A X0 : Feat Ideal) (d : PerNode Ideal) (r : Fin 100000) (q : Fin 128) :
    blend A X0 d (ix2 r q) = blendEntry (A (ix2 r q)) (d (ix1 r)) (X0 (ix2 r q)) := by
  unfold blend blendEntry
  rw [addf_apply, mulf_apply, mulf_apply, mulf_apply, cols_apply, splat_apply, splat_apply]

theorem mix_apply (c1 c2 : BitVec 32) (f : Feat Ideal) (W : Mat Ideal) (b : Bias Ideal) (r : Fin 100000) (q : Fin 128) :
    mix c1 c2 f W b (ix2 r q) = mixEntry c1 c2 (fun k => f (ix2 r k)) W (b (ix1 q)) q := by
  unfold mix mixEntry
  rw [addf_apply, addf_apply, mulf_apply, mulf_apply, rows_apply, splat_apply, splat_apply]
  simp only [Host.dotGeneral]
  rw [dot128_eq, PlainDot.dotGeneral_apply]

theorem post_apply (c1 c2 : BitVec 32) (A X0 : Feat Ideal) (d : PerNode Ideal) (W : Mat Ideal) (b : Bias Ideal) (r : Fin 100000) (q : Fin 128) :
    post c1 c2 A X0 d W b (ix2 r q)
      = mixEntry c1 c2 (fun k => blendEntry (A (ix2 r k)) (d (ix1 r)) (X0 (ix2 r k))) W (b (ix1 q)) q := by
  unfold post
  rw [mix_apply]
  simp only [blend_apply]

theorem outLayer_apply (X : Feat Ideal) (W : (⟨S128x64, .f32⟩ : BufTy).Contents (Elt Ideal)) (b : (⟨S64, .f32⟩ : BufTy).Contents (Elt Ideal))
    (r : Fin 100000) (q : Fin 64) :
    outLayer X W b (ix2 r q) = denseEntry (fun k => X (ix2 r k)) W (b (ix1 q)) q := by
  unfold outLayer denseEntry
  rw [addf_apply, broadcastInDim_1b_ab_apply, broadcastInDim_b_1b_apply]
  simp only [Host.dotGeneral]
  rw [dot64_eq, PlainDot.dotGeneral_apply]

end Cert.Net

end
-- ==== Proof.BlockEntries.lean ====
/-
  What each kernel body stores, read at an entry, over the extended reals.

  The body of a dense kernel stores, at `(p, q)` of its row block, `max (∑ₖ x(p, k) · w(k, q) + b(0, q)) 0` (the last
  kernel without the `max`); the body of a convolution epilogue stores the identity-mapped step of the blended row
  `0.8 · (agg(p, ·) · d(p, 0)) + 0.2 · x₀(p, ·)`. The changes of float format are the identity here, the matrix
  unit's product into a zero accumulator is the plain sum, and the bias and the per-row scale are spread by
  broadcasts that read row 0 and column 0. The entries are written with the network's own entry formulas
  (`Cert.Net.denseEntry`, `blendEntry`, `mixEntry`) over the block's row accessors.
-/
import proofs.«140979_j20710332301833_1_alg».proof.Proof.Gen.KernelIdeal.Skeleton
import proofs.«140979_j20710332301833_1_alg».proof.Proof.NetEntries

noncomputable section

namespace Cert.KernelIdeal.Blocks

open Cert.KernelIdeal Cert.KernelIdeal.Gen Idealize.ShloMosaic Idealize.ShloMosaic.ValueIdx Cert.Lib.RowCol Cert.Lib Cert.Net

/-- The kernels' square product record is the plain `5000×128 · 128×128` one. -/
theorem kdot128_eq : dot_S5000x128_S128x128_S5000x128_1_0_0_1_n_n = DotDims.plain 5000 128 128 := rfl

/-- The last kernel's product record is the plain `5000×128 · 128×64` one. -/
theorem kdot64_eq : dot_S5000x128_S128x64_S5000x64_1_0_0_1_n_n = DotDims.plain 5000 128 64 := rfl

/-- The first dense kernel's stored block at `(p, q)`. -/
theorem pay0_apply (x : Vec Ideal S5000x128 .f32) (w : Vec Ideal S128x128 .f32) (b : Vec Ideal S1x128 .f32) (p : Fin 5000) (q : Fin 128) :
    k0_pay1 x w b (ix2 p q)
      = max (denseEntry (fun k => x (ix2 p k)) w (b (ix2 (0 : Fin 1) q)) q) (Ideal.ofBits .f32 0x00000000#32) := by
  unfold k0_pay1 denseEntry
  simp only [maximumf_apply, addf_apply, broadcast_apply]
  rw [shapeCast_self, broadcastTo_1b_ab_apply]
  show max (FloatOps.matmul dot_S5000x128_S128x128_S5000x128_1_0_0_1_n_n none _ _ (constant S5000x128 .f32 0x00000000#32) (ix2 p q) + _) _ = _
  rw [kdot128_eq, PlainDot.matmul_zero_apply]
  rfl

/-- The last dense kernel's stored block at `(p, q)`: no activation. -/
theorem pay3_apply (x : Vec Ideal S5000x128 .f32) (w : Vec Ideal S128x64 .f32) (b : Vec Ideal S1x64 .f32) (p : Fin 5000) (q : Fin 64) :
    k3_pay1 x w b (ix2 p q) = denseEntry (fun k => x (ix2 p k)) w (b (ix2 (0 : Fin 1) q)) q := by
  unfold k3_pay1 denseEntry
  simp only [addf_apply]
  rw [shapeCast_self, shapeCast_self, broadcastTo_1b_ab_apply]
  show FloatOps.matmul dot_S5000x128_S128x64_S5000x64_1_0_0_1_n_n none _ _ (constant S5000x64 .f32 0x00000000#32) (ix2 p q) + _ = _
  rw [kdot64_eq, PlainDot.matmul_zero_apply]
  rfl

/-- The first convolution epilogue's stored block at `(p, q)`: the identity-mapped step of the blended row, then the
    activation. -/
theorem pay1_apply (a : Vec Ideal S5000x128 .f32) (d : Vec Ideal S5000x1 .f32) (x0 : Vec Ideal S5000x128 .f32)
    (w : Vec Ideal S128x128 .f32) (b : Vec Ideal S1x128 .f32) (p : Fin 5000) (q : Fin 128) :
    k1_pay1 a d x0 w b (ix2 p q)
      = max (mixEntry 0x3E9D1BD0#32 0x3F317218#32
          (fun k => blendEntry (a (ix2 p k)) (d (ix2 p (0 : Fin 1))) (x0 (ix2 p k))) w (b (ix2 (0 : Fin 1) q)) q)
        (Ideal.ofBits .f32 0x00000000#32) := by
  unfold k1_pay1 mixEntry blendEntry
  simp only [shapeCast_self]
  simp only [maximumf_apply, addf_apply, mulf_apply, broadcast_apply, broadcastTo_1b_ab_apply, broadcastTo_a1_ab_apply, matmul]
  rw [kdot128_eq, PlainDot.matmul_zero_apply]
  simp only [truncf_apply, addf_apply, mulf_apply, broadcast_apply, broadcastTo_a1_ab_apply]
  rfl

/-- The second convolution epilogue's stored block at `(p, q)`: other coefficients, no activation. -/
theorem pay2_apply (a : Vec Ideal S5000x128 .f32) (d : Vec Ideal S5000x1 .f32) (x0 : Vec Ideal S5000x128 .f32)
    (w : Vec Ideal S128x128 .f32) (b : Vec Ideal S1x128 .f32) (p : Fin 5000) (q : Fin 128) :
    k2_pay1 a d x0 w b (ix2 p q)
      = mixEntry 0x3F183370#32 0x3ECF991F#32
          (fun k => blendEntry (a (ix2 p k)) (d (ix2 p (0 : Fin 1))) (x0 (ix2 p k))) w (b (ix2 (0 : Fin 1) q)) q := by
  unfold k2_pay1 mixEntry blendEntry
  simp only [shapeCast_self]
  simp only [addf_apply, mulf_apply, broadcast_apply, broadcastTo_1b_ab_apply, broadcastTo_a1_ab_apply, matmul]
  rw [kdot128_eq, PlainDot.matmul_zero_apply]
  simp only [truncf_apply, addf_apply, mulf_apply, broadcast_apply, broadcastTo_a1_ab_apply]
  rfl

end Cert.KernelIdeal.Blocks

end
-- ==== Proof.Region0.lean ====
/-
  The first dense kernel's output array.

  Its grid has 20 points; point `t` reads rows `5000 t … 5000 t + 4999` of the input, the whole weight matrix and the
  bias row, and writes the same rows of the output. What it writes at `(p, q)` of the block is entry
  `(5000 t + p, q)` of `hidden X W b`, whatever the region finds in its arrays (`X`, `W`) as long as the bias array's
  one row is `b`. The twenty row blocks tile the output, so the array after the region IS `hidden X W b`.
-/
import proofs.«140979_j20710332301833_1_alg».proof.Proof.KernelIdealFrameP
import proofs.«140979_j20710332301833_1_alg».proof.Proof.BlockEntries
import Idealize.ShloMosaic.Lib.Pipeline.Value

set_option maxRecDepth 16384

noncomputable section

namespace Cert.KernelIdeal.Region0

open Cert.KernelIdeal Cert.KernelIdeal.Gen Cert.KernelIdeal.GenP Cert.KernelIdeal.Blocks
open Idealize.ShloMosaic Idealize.ShloMosaic.TcCoe Idealize.ShloMosaic.ValueIdx Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the output's row block move with the point, the weights and the bias
    stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
def row (t : Fin cfg0.N) (p : Fin 5000) : Fin 100000 :=
  ⟨5000 * t.val + p.val, by have h : t.val < grid0.N := t.isLt; rw [N_0] at h; have := p.isLt; omega⟩

/-- The input's block at point `t`, entry `(p, k)`. -/
theorem x_apply (c : Dev nD) (t : Fin cfg0.N) (p : Fin 5000) (k : Fin 128) :
    (iblk0 V c 0 t : Vec Ideal S5000x128 .f32) (ix2 p k) = (V c main_arg0 : S100000x128.Idx → EReal) (ix2 (row t p) k) := by
  obtain ⟨e00, e01, -⟩ := idx t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weights' block is the whole matrix. -/
theorem w_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e10, e11, -⟩ := idx t
  show (V c main_arg3 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block is the one bias row. -/
theorem b_apply (c : Dev nD) (t : Fin cfg0.N) (q : Fin 128) :
    (iblk0 V c 2 t : Vec Ideal S1x128 .f32) (ix2 (0 : Fin 1) q) = (V c main_v15 : S1x128.Idx → EReal) (ix2 (0 : Fin 1) q) := by
  obtain ⟨-, -, -, -, e20, e21, -⟩ := idx t
  show (V c main_v15 : S1x128.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Where entry `(p, q)` of point `t`'s output block sits in the output array. -/
theorem out_emb (t : Fin cfg0.N) (p : Fin 5000) (q : Fin 128) :
    ((cfg0.win 3).blk t).view.emb (ix2 p q) = (ix2 (row t p) q : S100000x128.Idx) := by
  obtain ⟨-, -, -, -, -, -, e30, e31⟩ := idx t
  refine funext fun a => Fin.ext ?_
  match a with
  | ⟨0, _⟩ => show win0_3.index t (0 : Fin 2) * 5000 + 1 * p.val = 5000 * t.val + p.val; omega
  | ⟨1, _⟩ => show win0_3.index t (1 : Fin 2) * 128 + 1 * q.val = q.val; omega

/-- WHAT POINT `t` WRITES BACK is block `t` of the dense layer of the arrays the region finds. -/
theorem flushed_eq (c : Dev nD) (b : Bias Ideal)
    (hb : ∀ q : Fin 128, (V c main_v15 : S1x128.Idx → EReal) (ix2 (0 : Fin 1) q) = b (ix1 q)) (t : Fin cfg0.N) :
    (dat0 V c).flushed 3 t = ((cfg0.win 3).blk t).view.read (Elt Ideal) (hidden (V c main_arg0) (V c main_arg3) b) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = hidden (V c main_arg0) (V c main_arg3) b (((cfg0.win 3).blk t).view.emb (ix2 p q))
  rw [out_emb, hidden_apply]
  refine (pay0_apply (iblk0 V c 0 t) (iblk0 V c 1 t) (iblk0 V c 2 t) p q).trans ?_
  rw [b_apply V c t q, hb q]
  unfold denseEntry
  simp only [x_apply V c t p, w_apply V c t]

/-- An index of the output array is in point `t`'s block iff its row is among the block's 5000. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The twenty row blocks cover the output array: row `r` is in block `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  refine ⟨t, flush0_3 t, ?_⟩
  obtain ⟨-, -, -, -, -, -, e30, e31⟩ := idx t
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the region: the dense layer with its activation, of the arrays the region finds. -/
theorem value (c : Dev nD) (b : Bias Ideal)
    (hb : ∀ q : Fin 128, (V c main_v15 : S1x128.Idx → EReal) (ix2 (0 : Fin 1) q) = b (ix1 q)) :
    (dat0 V c).arrAt 3 cfg0.N = hidden (V c main_arg0) (V c main_arg3) b :=
  (dat0 V c).arrAt_eq_of_cover 3 (hidden (V c main_arg0) (V c main_arg3) b) (fun t _ => flushed_eq V c b hb t) cover

end Cert.KernelIdeal.Region0

end
-- ==== Proof.Region1.lean ====
/-
  The first convolution epilogue's output array.

  Its grid has 20 points; point `t` reads rows `5000 t … 5000 t + 4999` of the aggregate, of the initial features and of the
  in-degree scale (a one-column array), the whole weight matrix and the bias row, and writes the same rows of the
  output: at `(p, q)` of the block, entry `(5000 t + p, q)` of `relu (post c₁ c₂ agg x₀ din W b)`, whatever the
  region finds in its arrays as long as the scale array's one column is `din` and the bias array's one row is `b`. The
  twenty row blocks tile the output, so the array after the region IS that layer.
-/
import proofs.«140979_j20710332301833_1_alg».proof.Proof.KernelIdealFrameP
import proofs.«140979_j20710332301833_1_alg».proof.Proof.BlockEntries
import Idealize.ShloMosaic.Lib.Pipeline.Value

set_option maxRecDepth 16384

noncomputable section

namespace Cert.KernelIdeal.Region1

open Cert.KernelIdeal Cert.KernelIdeal.Gen Cert.KernelIdeal.GenP Cert.KernelIdeal.Blocks
open Idealize.ShloMosaic Idealize.ShloMosaic.TcCoe Idealize.ShloMosaic.ValueIdx Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked inputs and the output move with the point, the weights and the
    bias stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `5000 t + p` of the array. -/
def row (t : Fin cfg1.N) (p : Fin 5000) : Fin 100000 :=
  ⟨5000 * t.val + p.val, by have h : t.val < grid1.N := t.isLt; rw [N_1] at h; have := p.isLt; omega⟩

/-- The aggregate's block at point `t`, entry `(p, k)`. -/
theorem agg_apply (c : Dev nD) (t : Fin cfg1.N) (p : Fin 5000) (k : Fin 128) :
    (iblk1 V c 0 t : Vec Ideal S5000x128 .f32) (ix2 p k) = (V c main_v29 : S100000x128.Idx → EReal) (ix2 (row t p) k) := by
  obtain ⟨e00, e01, -⟩ := idx t
  show (V c main_v29 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

/-- The initial features' block at point `t`, entry `(p, k)`. -/
theorem x0_apply (c : Dev nD) (t : Fin cfg1.N) (p : Fin 5000) (k : Fin 128) :
    (iblk1 V c 1 t : Vec Ideal S5000x128 .f32) (ix2 p k) = (V c main_v16 : S100000x128.Idx → EReal) (ix2 (row t p) k) := by
  obtain ⟨-, -, e10, e11, -⟩ := idx t
  show (V c main_v16 : S100000x128.Idx → EReal) (((cfg1.win 1).blk t).view.emb (ix2 p k)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

/-- The scale's block at point `t`, row `p`. -/
theorem din_apply (c : Dev nD) (t : Fin cfg1.N) (p : Fin 5000) :
    (iblk1 V c 2 t : Vec Ideal S5000x1 .f32) (ix2 p (0 : Fin 1)) = (V c main_v30 : S100000x1.Idx → EReal) (ix2 (row t p) (0 : Fin 1)) := by
  obtain ⟨-, -, -, -, e20, e21, -⟩ := idx t
  show (V c main_v30 : S100000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = 5000 * t.val + p.val; omega
  | ⟨1, _⟩ => show win1_2.index t (1 : Fin 2) * 1 + 1 * 0 = 0; omega

/-- The weights' block is the whole matrix. -/
theorem w_apply (c : Dev nD) (t : Fin cfg1.N) (k : Fin 128) (q : Fin 128) :
    (iblk1 V c 3 t : Vec Ideal S128x128 .f32) (ix2 k q) = (V c main_arg5 : S128x128.Idx → EReal) (ix2 k q) := by
  obtain ⟨-, -, -, -, -, -, e30, e31, -⟩ := idx t
  show (V c main_arg5 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block is the one bias row. -/
theorem b_apply (c : Dev nD) (t : Fin cfg1.N) (q : Fin 128) :
    (iblk1 V c 4 t : Vec Ideal S1x128 .f32) (ix2 (0 : Fin 1) q) = (V c main_v31 : S1x128.Idx → EReal) (ix2 (0 : Fin 1) q) := by
  obtain ⟨-, -, -, -, -, -, -, -, e40, e41, -⟩ := idx t
  show (V c main_v31 : S1x128.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Where entry `(p, q)` of point `t`'s output block sits in the output array. -/
theorem out_emb (t : Fin cfg1.N) (p : Fin 5000) (q : Fin 128) :
    ((cfg1.win 5).blk t).view.emb (ix2 p q) = (ix2 (row t p) q : S100000x128.Idx) := by
  obtain ⟨-, -, -, -, -, -, -, -, -, -, e50, e51⟩ := idx t
  refine funext fun a => Fin.ext ?_
  match a with
  | ⟨0, _⟩ => show win1_5.index t (0 : Fin 2) * 5000 + 1 * p.val = 5000 * t.val + p.val; omega
  | ⟨1, _⟩ => show win1_5.index t (1 : Fin 2) * 128 + 1 * q.val = q.val; omega

/-- The layer this region computes, of the arrays it finds. -/
abbrev layer (c : Dev nD) (din : PerNode Ideal) (b : Bias Ideal) : Feat Ideal :=
  relu (post 0x3E9D1BD0#32 0x3F317218#32 (V c main_v29) (V c main_v16) din (V c main_arg5) b)

/-- WHAT POINT `t` WRITES BACK is block `t` of the layer of the arrays the region finds. -/
theorem flushed_eq (c : Dev nD) (din : PerNode Ideal) (b : Bias Ideal)
    (hd : ∀ r : Fin 100000, (V c main_v30 : S100000x1.Idx → EReal) (ix2 r (0 : Fin 1)) = din (ix1 r))
    (hb : ∀ q : Fin 128, (V c main_v31 : S1x128.Idx → EReal) (ix2 (0 : Fin 1) q) = b (ix1 q)) (t : Fin cfg1.N) :
    (dat1 V c).flushed 5 t = ((cfg1.win 5).blk t).view.read (Elt Ideal) (layer V c din b) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 2 t) (iblk1 V c 1 t) (iblk1 V c 3 t) (iblk1 V c 4 t) (ix2 p q)
    = layer V c din b (((cfg1.win 5).blk t).view.emb (ix2 p q))
  rw [out_emb]
  unfold layer
  rw [relu_apply, post_apply]
  refine (pay1_apply (iblk1 V c 0 t) (iblk1 V c 2 t) (iblk1 V c 1 t) (iblk1 V c 3 t) (iblk1 V c 4 t) p q).trans ?_
  rw [b_apply V c t q, hb q, din_apply V c t p, hd (row t p)]
  unfold mixEntry
  simp only [agg_apply V c t p, x0_apply V c t p, w_apply V c t]

/-- An index of the output array is in point `t`'s block iff its row is among the block's 5000. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v32).slice (win1_5.rect t)).set ↔ _
  rw [View.set_slice_whole, Rect.mem_set_unit]
  exact Iff.rfl

/-- The twenty row blocks cover the output array: row `r` is in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; rw [hN]; omega⟩
  refine ⟨t, flush1_5 t, ?_⟩
  obtain ⟨-, -, -, -, -, -, -, -, -, -, e50, e51⟩ := idx t
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the arrays the region finds. -/
theorem value (c : Dev nD) (din : PerNode Ideal) (b : Bias Ideal)
    (hd : ∀ r : Fin 100000, (V c main_v30 : S100000x1.Idx → EReal) (ix2 r (0 : Fin 1)) = din (ix1 r))
    (hb : ∀ q : Fin 128, (V c main_v31 : S1x128.Idx → EReal) (ix2 (0 : Fin 1) q) = b (ix1 q)) :
    (dat1 V c).arrAt 5 cfg1.N = layer V c din b :=
  (dat1 V c).arrAt_eq_of_cover 5 (layer V c din b) (fun t _ => flushed_eq V c din b hd hb t) cover

end Cert.KernelIdeal.Region1

end
-- ==== Proof.Region2.lean ====
/-
  The second convolution epilogue's output array.

  Its grid has 20 points; point `t` reads rows `5000 t … 5000 t + 4999` of the aggregate, of the initial features and of the
  in-degree scale (a one-column array), the whole weight matrix and the bias row, and writes the same rows of the
  output: at `(p, q)` of the block, entry `(5000 t + p, q)` of `post c₁ c₂ agg x₀ din W b` (no activation), whatever the
  region finds in its arrays as long as the scale array's one column is `din` and the bias array's one row is `b`. The
  twenty row blocks tile the output, so the array after the region IS that layer.
-/
import proofs.«140979_j20710332301833_1_alg».proof.Proof.KernelIdealFrameP
import proofs.«140979_j20710332301833_1_alg».proof.Proof.BlockEntries
import Idealize.ShloMosaic.Lib.Pipeline.Value

set_option maxRecDepth 16384

noncomputable section

namespace Cert.KernelIdeal.Region2

open Cert.KernelIdeal Cert.KernelIdeal.Gen Cert.KernelIdeal.GenP Cert.KernelIdeal.Blocks
open Idealize.ShloMosaic Idealize.ShloMosaic.TcCoe Idealize.ShloMosaic.ValueIdx Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked inputs and the output move with the point, the weights and the
    bias stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `5000 t + p` of the array. -/
def row (t : Fin cfg2.N) (p : Fin 5000) : Fin 100000 :=
  ⟨5000 * t.val + p.val, by have h : t.val < grid2.N := t.isLt; rw [N_2] at h; have := p.isLt; omega⟩

/-- The aggregate's block at point `t`, entry `(p, k)`. -/
theorem agg_apply (c : Dev nD) (t : Fin cfg2.N) (p : Fin 5000) (k : Fin 128) :
    (iblk2 V c 0 t : Vec Ideal S5000x128 .f32) (ix2 p k) = (V c main_v45 : S100000x128.Idx → EReal) (ix2 (row t p) k) := by
  obtain ⟨e00, e01, -⟩ := idx t
  show (V c main_v45 : S100000x128.Idx → EReal) (((cfg2.win 0).blk t).view.emb (ix2 p k)) = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

/-- The initial features' block at point `t`, entry `(p, k)`. -/
theorem x0_apply (c : Dev nD) (t : Fin cfg2.N) (p : Fin 5000) (k : Fin 128) :
    (iblk2 V c 1 t : Vec Ideal S5000x128 .f32) (ix2 p k) = (V c main_v16 : S100000x128.Idx → EReal) (ix2 (row t p) k) := by
  obtain ⟨-, -, e10, e11, -⟩ := idx t
  show (V c main_v16 : S100000x128.Idx → EReal) (((cfg2.win 1).blk t).view.emb (ix2 p k)) = _
  refine congrArg _ (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega

/-- The scale's block at point `t`, row `p`. -/
theorem din_apply (c : Dev nD) (t : Fin cfg2.N) (p : Fin 5000) :
    (iblk2 V c 2 t : Vec Ideal S5000x1 .f32) (ix2 p (0 : Fin 1)) = (V c main_v46 : S100000x1.Idx → EReal) (ix2 (row t p) (0 : Fin 1)) := by
  obtain ⟨-, -, -, -, e20, e21, -⟩ := idx t
  show (V c main_v46 : S100000x1.Idx → EReal) (((cfg2.win 2).blk t).view.emb (ix2 p (0 : Fin 1))) = _
  refine congrArg _ (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * 0 = 0; omega

/-- The weights' block is the whole matrix. -/
theorem w_apply (c : Dev nD) (t : Fin cfg2.N) (k : Fin 128) (q : Fin 128) :
    (iblk2 V c 3 t : Vec Ideal S128x128 .f32) (ix2 k q) = (V c main_arg7 : S128x128.Idx → EReal) (ix2 k q) := by
  obtain ⟨-, -, -, -, -, -, e30, e31, -⟩ := idx t
  show (V c main_arg7 : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias block is the one bias row. -/
theorem b_apply (c : Dev nD) (t : Fin cfg2.N) (q : Fin 128) :
    (iblk2 V c 4 t : Vec Ideal S1x128 .f32) (ix2 (0 : Fin 1) q) = (V c main_v47 : S1x128.Idx → EReal) (ix2 (0 : Fin 1) q) := by
  obtain ⟨-, -, -, -, -, -, -, -, e40, e41, -⟩ := idx t
  show (V c main_v47 : S1x128.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Where entry `(p, q)` of point `t`'s output block sits in the output array. -/
theorem out_emb (t : Fin cfg2.N) (p : Fin 5000) (q : Fin 128) :
    ((cfg2.win 5).blk t).view.emb (ix2 p q) = (ix2 (row t p) q : S100000x128.Idx) := by
  obtain ⟨-, -, -, -, -, -, -, -, -, -, e50, e51⟩ := idx t
  refine funext fun a => Fin.ext ?_
  match a with
  | ⟨0, _⟩ => show win2_5.index t (0 : Fin 2) * 5000 + 1 * p.val = 5000 * t.val + p.val; omega
  | ⟨1, _⟩ => show win2_5.index t (1 : Fin 2) * 128 + 1 * q.val = q.val; omega

/-- The layer this region computes, of the arrays it finds. -/
abbrev layer (c : Dev nD) (din : PerNode Ideal) (b : Bias Ideal) : Feat Ideal :=
  post 0x3F183370#32 0x3ECF991F#32 (V c main_v45) (V c main_v16) din (V c main_arg7) b

/-- WHAT POINT `t` WRITES BACK is block `t` of the layer of the arrays the region finds. -/
theorem flushed_eq (c : Dev nD) (din : PerNode Ideal) (b : Bias Ideal)
    (hd : ∀ r : Fin 100000, (V c main_v46 : S100000x1.Idx → EReal) (ix2 r (0 : Fin 1)) = din (ix1 r))
    (hb : ∀ q : Fin 128, (V c main_v47 : S1x128.Idx → EReal) (ix2 (0 : Fin 1) q) = b (ix1 q)) (t : Fin cfg2.N) :
    (dat2 V c).flushed 5 t = ((cfg2.win 5).blk t).view.read (Elt Ideal) (layer V c din b) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 2 t) (iblk2 V c 1 t) (iblk2 V c 3 t) (iblk2 V c 4 t) (ix2 p q)
    = layer V c din b (((cfg2.win 5).blk t).view.emb (ix2 p q))
  rw [out_emb]
  unfold layer
  rw [post_apply]
  refine (pay2_apply (iblk2 V c 0 t) (iblk2 V c 2 t) (iblk2 V c 1 t) (iblk2 V c 3 t) (iblk2 V c 4 t) p q).trans ?_
  rw [b_apply V c t q, hb q, din_apply V c t p, hd (row t p)]
  unfold mixEntry
  simp only [agg_apply V c t p, x0_apply V c t p, w_apply V c t]

/-- An index of the output array is in point `t`'s block iff its row is among the block's 5000. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v48).slice (win2_5.rect t)).set ↔ _
  rw [View.set_slice_whole, Rect.mem_set_unit]
  exact Iff.rfl

/-- The twenty row blocks cover the output array: row `r` is in block `r / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; rw [hN]; omega⟩
  refine ⟨t, flush2_5 t, ?_⟩
  obtain ⟨-, -, -, -, -, -, -, -, -, -, e50, e51⟩ := idx t
  rw [mem_blk]
  intro a
  have ht : t.val = (i 0).val / 5000 := rfl
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region: the layer of the arrays the region finds. -/
theorem value (c : Dev nD) (din : PerNode Ideal) (b : Bias Ideal)
    (hd : ∀ r : Fin 100000, (V c main_v46 : S100000x1.Idx → EReal) (ix2 r (0 : Fin 1)) = din (ix1 r))
    (hb : ∀ q : Fin 128, (V c main_v47 : S1x128.Idx → EReal) (ix2 (0 : Fin 1) q) = b (ix1 q)) :
    (dat2 V c).arrAt 5 cfg2.N = layer V c din b :=
  (dat2 V c).arrAt_eq_of_cover 5 (layer V c din b) (fun t _ => flushed_eq V c din b hd hb t) cover

end Cert.KernelIdeal.Region2

end
-- ==== Proof.Region3.lean ====
/-
  The last dense kernel's output array.

  Its grid has 20 points; point `t` reads rows `5000 t … 5000 t + 4999` of the input, the whole `128 × 64` weight matrix
  and the bias row, and writes the same rows of the `[100000, 64]` output: at `(p, q)` of the block, entry
  `(5000 t + p, q)` of `outLayer X W b`, whatever the region finds in its arrays as long as the bias array's one row is
  `b`. The twenty row blocks tile the output, so the array after the region IS `outLayer X W b`.
-/
import proofs.«140979_j20710332301833_1_alg».proof.Proof.KernelIdealFrameP
import proofs.«140979_j20710332301833_1_alg».proof.Proof.BlockEntries
import Idealize.ShloMosaic.Lib.Pipeline.Value

set_option maxRecDepth 16384

noncomputable section

namespace Cert.KernelIdeal.Region3

open Cert.KernelIdeal Cert.KernelIdeal.Gen Cert.KernelIdeal.GenP Cert.KernelIdeal.Blocks
open Idealize.ShloMosaic Idealize.ShloMosaic.TcCoe Idealize.ShloMosaic.ValueIdx Idealize.SL.Sem Cert.Net
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's and the output's row block move with the point, the weights and the bias
    stay. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s block is row `5000 t + p` of the array. -/
def row (t : Fin cfg3.N) (p : Fin 5000) : Fin 100000 :=
  ⟨5000 * t.val + p.val, by have h : t.val < grid3.N := t.isLt; rw [N_3] at h; have := p.isLt; omega⟩

/-- The input's block at point `t`, entry `(p, k)`. -/
theorem x_apply (c : Dev nD) (t : Fin cfg3.N) (p : Fin 5000) (k : Fin 128) :
    (iblk3 V c 0 t : Vec Ideal S5000x128 .f32) (ix2 p k) = (V c main_v48 : S100000x128.Idx → EReal) (ix2 (row t p) k) := by
  obtain ⟨e00, e01, -⟩ := idx t
  show (V c main_v48 : S100000x128.Idx → EReal) (((cfg3.win 0).blk t).view.emb (ix2 p k)) = _
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

/-- The weights' block is the whole matrix. -/
theorem w_apply (c : Dev nD) (t : Fin cfg3.N) (k : Fin 128) (q : Fin 64) :
    (iblk3 V c 1 t : Vec Ideal S128x64 .f32) (ix2 k q) = (V c main_arg9 : S128x64.Idx → EReal) (ix2 k q) := by
  obtain ⟨-, -, e10, e11, -⟩ := idx t
  show (V c main_arg9 : S128x64.Idx → EReal) (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 64 + 1 * q.val = q.val; omega

/-- The bias block is the one bias row. -/
theorem b_apply (c : Dev nD) (t : Fin cfg3.N) (q : Fin 64) :
    (iblk3 V c 2 t : Vec Ideal S1x64 .f32) (ix2 (0 : Fin 1) q) = (V c main_v49 : S1x64.Idx → EReal) (ix2 (0 : Fin 1) q) := by
  obtain ⟨-, -, -, -, e20, e21, -⟩ := idx t
  show (V c main_v49 : S1x64.Idx → EReal) (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- Where entry `(p, q)` of point `t`'s output block sits in the output array. -/
theorem out_emb (t : Fin cfg3.N) (p : Fin 5000) (q : Fin 64) :
    ((cfg3.win 3).blk t).view.emb (ix2 p q) = (ix2 (row t p) q : S100000x64.Idx) := by
  obtain ⟨-, -, -, -, -, -, e30, e31⟩ := idx t
  refine funext fun a => Fin.ext ?_
  match a with
  | ⟨0, _⟩ => show win3_3.index t (0 : Fin 2) * 5000 + 1 * p.val = 5000 * t.val + p.val; omega
  | ⟨1, _⟩ => show win3_3.index t (1 : Fin 2) * 64 + 1 * q.val = q.val; omega

/-- WHAT POINT `t` WRITES BACK is block `t` of the output layer of the arrays the region finds. -/
theorem flushed_eq (c : Dev nD) (b : (⟨Cert.ReferenceIdeal.S64, .f32⟩ : BufTy).Contents (Elt Ideal))
    (hb : ∀ q : Fin 64, (V c main_v49 : S1x64.Idx → EReal) (ix2 (0 : Fin 1) q) = b (ix1 q)) (t : Fin cfg3.N) :
    (dat3 V c).flushed 3 t = ((cfg3.win 3).blk t).view.read (Elt Ideal) (outLayer (V c main_v48) (V c main_arg9) b) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (ix2 p q)
    = outLayer (V c main_v48) (V c main_arg9) b (((cfg3.win 3).blk t).view.emb (ix2 p q))
  rw [out_emb, outLayer_apply]
  refine (pay3_apply (iblk3 V c 0 t) (iblk3 V c 1 t) (iblk3 V c 2 t) p q).trans ?_
  rw [b_apply V c t q, hb q]
  unfold denseEntry
  simp only [x_apply V c t p, w_apply V c t]

/-- An index of the output array is in point `t`'s block iff its row is among the block's 5000. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v50).slice (win3_3.rect t)).set ↔ _
  rw [View.set_slice_whole, Rect.mem_set_unit]
  exact Iff.rfl

/-- The twenty row blocks cover the output array: row `r` is in block `r / 5000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  let t : Fin cfg3.N := ⟨(i 0).val / 5000, by show (i 0).val / 5000 < grid3.N; rw [hN]; omega⟩
  refine ⟨t, flush3_3 t, ?_⟩
  obtain ⟨-, -, -, -, -, -, e30, e31⟩ := idx t
  rw [mem_blk]
  intro a
  have ht : t.val = (i 0).val / 5000 := rfl
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE OUTPUT ARRAY after the region: the output layer of the arrays the region finds. -/
theorem value (c : Dev nD) (b : (⟨Cert.ReferenceIdeal.S64, .f32⟩ : BufTy).Contents (Elt Ideal))
    (hb : ∀ q : Fin 64, (V c main_v49 : S1x64.Idx → EReal) (ix2 (0 : Fin 1) q) = b (ix1 q)) :
    (dat3 V c).arrAt 3 cfg3.N = outLayer (V c main_v48) (V c main_arg9) b :=
  (dat3 V c).arrAt_eq_of_cover 3 (outLayer (V c main_v48) (V c main_arg9) b) (fun t _ => flushed_eq V c b hb t) cover

end Cert.KernelIdeal.Region3

end
-- ==== Proof.KernelNet.lean ====
/-
  The kernel program computes the network.

  Its @main is four pipelined regions among stretches of host operations. Boundary by boundary, the buffers that later
  items read hold: after the first stretch, the two inverse-square-root degree vectors and the first bias as a row;
  after the first region, the hidden features `h₀`; after the second stretch, the aggregate of `h₀` and the in-degree
  scale as a column; after the second region, the first convolution layer; after the third stretch, its aggregate;
  after the third region, the second convolution layer; and after the last region the output layer of it: `Cert.Net.net`
  of the eleven arguments. A buffer that an item does not write keeps what it held.
-/
import proofs.«140979_j20710332301833_1_alg».proof.Proof.Region0
import proofs.«140979_j20710332301833_1_alg».proof.Proof.Region1
import proofs.«140979_j20710332301833_1_alg».proof.Proof.Region2
import proofs.«140979_j20710332301833_1_alg».proof.Proof.Region3
import Idealize.ShloMosaic.Lib.StableHlo.Run

set_option maxRecDepth 16384

noncomputable section

namespace Cert.KernelIdeal.KNet

open Cert.KernelIdeal Cert.KernelIdeal.Gen Cert.KernelIdeal.GenP
open Idealize.ShloMosaic Idealize.ShloMosaic.TcCoe Idealize.ShloMosaic.ValueIdx Idealize.SL.Sem Idealize.ShloMosaic.StableHlo Cert.Net
open Cert.Lib.RowCol

variable (m : (ℓ : Loc nD τ sig) → Buf (Elt Ideal) ℓ) (ρ : Dev nD → PrngReg) (c : Dev nD)

/-! ## The arguments, and the network's intermediate arrays of them -/

abbrev feat : Feat Ideal := m ((c : Thread nD τ).loc main_arg0)
abbrev src : Edges Ideal := m ((c : Thread nD τ).loc main_arg1)
abbrev dst : Edges Ideal := m ((c : Thread nD τ).loc main_arg2)
abbrev w1 : Mat Ideal := m ((c : Thread nD τ).loc main_arg3)
abbrev b1 : Bias Ideal := m ((c : Thread nD τ).loc main_arg4)
abbrev cw1 : Mat Ideal := m ((c : Thread nD τ).loc main_arg5)
abbrev cb1 : Bias Ideal := m ((c : Thread nD τ).loc main_arg6)
abbrev cw2 : Mat Ideal := m ((c : Thread nD τ).loc main_arg7)
abbrev cb2 : Bias Ideal := m ((c : Thread nD τ).loc main_arg8)
abbrev w2 : (⟨Cert.ReferenceIdeal.S128x64, .f32⟩ : BufTy).Contents (Elt Ideal) := m ((c : Thread nD τ).loc main_arg9)
abbrev b2 : (⟨Cert.ReferenceIdeal.S64, .f32⟩ : BufTy).Contents (Elt Ideal) := m ((c : Thread nD τ).loc main_arg10)

/-- The hidden features. -/
abbrev h0 : Feat Ideal := hidden (feat m c) (w1 m c) (b1 m c)
/-- The first convolution layer. -/
abbrev x1 : Feat Ideal := conv1 (h0 m c) (src m c) (dst m c) (cw1 m c) (cb1 m c)
/-- The second convolution layer. -/
abbrev x2 : Feat Ideal := conv2 (x1 m c) (h0 m c) (src m c) (dst m c) (cw2 m c) (cb2 m c)

/-! ## A buffer an item does not write keeps its contents

A host stretch leaves a buffer none of its operations writes; a region leaves every buffer that is not one of its
arrays, and its input arrays too. -/

/-- No operation of the stretch writes the buffer: operation by operation, the written buffer is another one. -/
macro "not_written" : tactic => `(tactic| (
  refine List.forall_iff_forall_mem.mp ?_
  simp only [hostOps0, hostOps1, hostOps2, hostOps3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keepH0 {b : Ref sig .tc} (hb : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ hb
theorem keepH1 {b : Ref sig .tc} (hb : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ hb
theorem keepH2 {b : Ref sig .tc} (hb : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ hb
theorem keepH3 {b : Ref sig .tc} (hb : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ hb

/-! ## After the first stretch of host operations: the degree scales, the first bias as a row -/

theorem W1_arg0 : W1 m ρ c (Proc.devRef .tc main_arg0) = feat m c := keepH0 m ρ c (b := main_arg0) (by not_written)
theorem W1_arg1 : W1 m ρ c (Proc.devRef .tc main_arg1) = src m c := keepH0 m ρ c (b := main_arg1) (by not_written)
theorem W1_arg2 : W1 m ρ c (Proc.devRef .tc main_arg2) = dst m c := keepH0 m ρ c (b := main_arg2) (by not_written)
theorem W1_arg3 : W1 m ρ c (Proc.devRef .tc main_arg3) = w1 m c := keepH0 m ρ c (b := main_arg3) (by not_written)
theorem W1_arg5 : W1 m ρ c (Proc.devRef .tc main_arg5) = cw1 m c := keepH0 m ρ c (b := main_arg5) (by not_written)
theorem W1_arg6 : W1 m ρ c (Proc.devRef .tc main_arg6) = cb1 m c := keepH0 m ρ c (b := main_arg6) (by not_written)
theorem W1_arg7 : W1 m ρ c (Proc.devRef .tc main_arg7) = cw2 m c := keepH0 m ρ c (b := main_arg7) (by not_written)
theorem W1_arg8 : W1 m ρ c (Proc.devRef .tc main_arg8) = cb2 m c := keepH0 m ρ c (b := main_arg8) (by not_written)
theorem W1_arg9 : W1 m ρ c (Proc.devRef .tc main_arg9) = w2 m c := keepH0 m ρ c (b := main_arg9) (by not_written)
theorem W1_arg10 : W1 m ρ c (Proc.devRef .tc main_arg10) = b2 m c := keepH0 m ρ c (b := main_arg10) (by not_written)
theorem W1_v12 : W1 m ρ c (Proc.devRef .tc main_v12) = invSqrtDeg (src m c) := by
  show StableHlo.after hostOps0 (W0 m ρ c) (Proc.devRef .tc main_v12) = _
  dsimp only [hostOps0]; after_results <;> rfl
theorem W1_v14 : W1 m ρ c (Proc.devRef .tc main_v14) = invSqrtDeg (dst m c) := by
  show StableHlo.after hostOps0 (W0 m ρ c) (Proc.devRef .tc main_v14) = _
  dsimp only [hostOps0]; after_results <;> rfl
theorem W1_v15 : W1 m ρ c (Proc.devRef .tc main_v15) = shapeCast S1x128 (b1 m c) shapeCasts_S128_S1x128 := by
  show StableHlo.after hostOps0 (W0 m ρ c) (Proc.devRef .tc main_v15) = _
  dsimp only [hostOps0]; after_results <;> rfl

/-! ## After the first region: the hidden features -/

theorem W2_v16 : W2 m ρ c (Proc.devRef .tc main_v16) = h0 m c := by
  refine (W2_arr m ρ c 3).trans ?_
  refine (Region0.value (V1 m ρ) c (b1 m c) ?_).trans ?_
  · intro q
    show W1 m ρ c (Proc.devRef .tc main_v15) (ix2 (0 : Fin 1) q) = _
    rw [W1_v15]; exact shapeCast_a_1a_apply _ _ 0 q
  · show hidden (W1 m ρ c (Proc.devRef .tc main_arg0)) (W1 m ρ c (Proc.devRef .tc main_arg3)) (b1 m c) = _
    rw [W1_arg0, W1_arg3]

theorem W2_arg1 : W2 m ρ c (Proc.devRef .tc main_arg1) = src m c := (W2_of_ne m ρ c main_arg1 (by decide)).trans (W1_arg1 m ρ c)
theorem W2_arg2 : W2 m ρ c (Proc.devRef .tc main_arg2) = dst m c := (W2_of_ne m ρ c main_arg2 (by decide)).trans (W1_arg2 m ρ c)
theorem W2_arg5 : W2 m ρ c (Proc.devRef .tc main_arg5) = cw1 m c := (W2_of_ne m ρ c main_arg5 (by decide)).trans (W1_arg5 m ρ c)
theorem W2_arg6 : W2 m ρ c (Proc.devRef .tc main_arg6) = cb1 m c := (W2_of_ne m ρ c main_arg6 (by decide)).trans (W1_arg6 m ρ c)
theorem W2_arg7 : W2 m ρ c (Proc.devRef .tc main_arg7) = cw2 m c := (W2_of_ne m ρ c main_arg7 (by decide)).trans (W1_arg7 m ρ c)
theorem W2_arg8 : W2 m ρ c (Proc.devRef .tc main_arg8) = cb2 m c := (W2_of_ne m ρ c main_arg8 (by decide)).trans (W1_arg8 m ρ c)
theorem W2_arg9 : W2 m ρ c (Proc.devRef .tc main_arg9) = w2 m c := (W2_of_ne m ρ c main_arg9 (by decide)).trans (W1_arg9 m ρ c)
theorem W2_arg10 : W2 m ρ c (Proc.devRef .tc main_arg10) = b2 m c := (W2_of_ne m ρ c main_arg10 (by decide)).trans (W1_arg10 m ρ c)
theorem W2_v12 : W2 m ρ c (Proc.devRef .tc main_v12) = invSqrtDeg (src m c) := (W2_of_ne m ρ c main_v12 (by decide)).trans (W1_v12 m ρ c)
theorem W2_v14 : W2 m ρ c (Proc.devRef .tc main_v14) = invSqrtDeg (dst m c) := (W2_of_ne m ρ c main_v14 (by decide)).trans (W1_v14 m ρ c)

/-! ## After the second stretch: the aggregate of the hidden features, the in-degree scale as a column -/

theorem W3_v29 : W3 m ρ c (Proc.devRef .tc main_v29) = aggregate (h0 m c) (src m c) (dst m c) := by
  show StableHlo.after hostOps1 (W2 m ρ c) (Proc.devRef .tc main_v29) = _
  dsimp only [hostOps1]; after_results_simp
  rw [W2_v16, W2_v12, W2_arg1, W2_arg2]
  rfl
theorem W3_v30 : W3 m ρ c (Proc.devRef .tc main_v30) = shapeCast S100000x1 (invSqrtDeg (dst m c)) shapeCasts_S100000_S100000x1 := by
  show StableHlo.after hostOps1 (W2 m ρ c) (Proc.devRef .tc main_v30) = _
  dsimp only [hostOps1]; after_results
  rw [W2_v14]; rfl
theorem W3_v31 : W3 m ρ c (Proc.devRef .tc main_v31) = shapeCast S1x128 (cb1 m c) shapeCasts_S128_S1x128 := by
  show StableHlo.after hostOps1 (W2 m ρ c) (Proc.devRef .tc main_v31) = _
  dsimp only [hostOps1]; after_results
  rw [W2_arg6]; rfl
theorem W3_v16 : W3 m ρ c (Proc.devRef .tc main_v16) = h0 m c := (keepH1 m ρ c (b := main_v16) (by not_written)).trans (W2_v16 m ρ c)
theorem W3_arg1 : W3 m ρ c (Proc.devRef .tc main_arg1) = src m c := (keepH1 m ρ c (b := main_arg1) (by not_written)).trans (W2_arg1 m ρ c)
theorem W3_arg2 : W3 m ρ c (Proc.devRef .tc main_arg2) = dst m c := (keepH1 m ρ c (b := main_arg2) (by not_written)).trans (W2_arg2 m ρ c)
theorem W3_arg5 : W3 m ρ c (Proc.devRef .tc main_arg5) = cw1 m c := (keepH1 m ρ c (b := main_arg5) (by not_written)).trans (W2_arg5 m ρ c)
theorem W3_arg7 : W3 m ρ c (Proc.devRef .tc main_arg7) = cw2 m c := (keepH1 m ρ c (b := main_arg7) (by not_written)).trans (W2_arg7 m ρ c)
theorem W3_arg8 : W3 m ρ c (Proc.devRef .tc main_arg8) = cb2 m c := (keepH1 m ρ c (b := main_arg8) (by not_written)).trans (W2_arg8 m ρ c)
theorem W3_arg9 : W3 m ρ c (Proc.devRef .tc main_arg9) = w2 m c := (keepH1 m ρ c (b := main_arg9) (by not_written)).trans (W2_arg9 m ρ c)
theorem W3_arg10 : W3 m ρ c (Proc.devRef .tc main_arg10) = b2 m c := (keepH1 m ρ c (b := main_arg10) (by not_written)).trans (W2_arg10 m ρ c)
theorem W3_v12 : W3 m ρ c (Proc.devRef .tc main_v12) = invSqrtDeg (src m c) := (keepH1 m ρ c (b := main_v12) (by not_written)).trans (W2_v12 m ρ c)
theorem W3_v14 : W3 m ρ c (Proc.devRef .tc main_v14) = invSqrtDeg (dst m c) := (keepH1 m ρ c (b := main_v14) (by not_written)).trans (W2_v14 m ρ c)

/-! ## After the second region: the first convolution layer -/

theorem W4_v32 : W4 m ρ c (Proc.devRef .tc main_v32) = x1 m c := by
  refine (W4_arr m ρ c 5).trans ?_
  refine (Region1.value (V3 m ρ) c (invSqrtDeg (dst m c)) (cb1 m c) ?_ ?_).trans ?_
  · intro r
    show W3 m ρ c (Proc.devRef .tc main_v30) (ix2 r (0 : Fin 1)) = _
    rw [W3_v30]; exact shapeCast_a_a1_apply _ _ r 0
  · intro q
    show W3 m ρ c (Proc.devRef .tc main_v31) (ix2 (0 : Fin 1) q) = _
    rw [W3_v31]; exact shapeCast_a_1a_apply _ _ 0 q
  · show relu (post 0x3E9D1BD0#32 0x3F317218#32 (W3 m ρ c (Proc.devRef .tc main_v29)) (W3 m ρ c (Proc.devRef .tc main_v16)) (invSqrtDeg (dst m c))
      (W3 m ρ c (Proc.devRef .tc main_arg5)) (cb1 m c)) = _
    rw [W3_v29, W3_v16, W3_arg5]
    rfl

theorem W4_v16 : W4 m ρ c (Proc.devRef .tc main_v16) = h0 m c :=
  ((W4_arr m ρ c 1).trans (((dat1 (V3 m ρ) c).arrAt_in 1 rfl _).trans (A_eq1 (V3 m ρ) c 1))).trans (W3_v16 m ρ c)
theorem W4_arg1 : W4 m ρ c (Proc.devRef .tc main_arg1) = src m c := (W4_of_ne m ρ c main_arg1 (by decide)).trans (W3_arg1 m ρ c)
theorem W4_arg2 : W4 m ρ c (Proc.devRef .tc main_arg2) = dst m c := (W4_of_ne m ρ c main_arg2 (by decide)).trans (W3_arg2 m ρ c)
theorem W4_arg7 : W4 m ρ c (Proc.devRef .tc main_arg7) = cw2 m c := (W4_of_ne m ρ c main_arg7 (by decide)).trans (W3_arg7 m ρ c)
theorem W4_arg8 : W4 m ρ c (Proc.devRef .tc main_arg8) = cb2 m c := (W4_of_ne m ρ c main_arg8 (by decide)).trans (W3_arg8 m ρ c)
theorem W4_arg9 : W4 m ρ c (Proc.devRef .tc main_arg9) = w2 m c := (W4_of_ne m ρ c main_arg9 (by decide)).trans (W3_arg9 m ρ c)
theorem W4_arg10 : W4 m ρ c (Proc.devRef .tc main_arg10) = b2 m c := (W4_of_ne m ρ c main_arg10 (by decide)).trans (W3_arg10 m ρ c)
theorem W4_v12 : W4 m ρ c (Proc.devRef .tc main_v12) = invSqrtDeg (src m c) := (W4_of_ne m ρ c main_v12 (by decide)).trans (W3_v12 m ρ c)
theorem W4_v14 : W4 m ρ c (Proc.devRef .tc main_v14) = invSqrtDeg (dst m c) := (W4_of_ne m ρ c main_v14 (by decide)).trans (W3_v14 m ρ c)

/-! ## After the third stretch: the aggregate of the first convolution layer -/

theorem W5_v45 : W5 m ρ c (Proc.devRef .tc main_v45) = aggregate (x1 m c) (src m c) (dst m c) := by
  show StableHlo.after hostOps2 (W4 m ρ c) (Proc.devRef .tc main_v45) = _
  dsimp only [hostOps2]; after_results_simp
  rw [W4_v32, W4_v12, W4_arg1, W4_arg2]
  rfl
theorem W5_v46 : W5 m ρ c (Proc.devRef .tc main_v46) = shapeCast S100000x1 (invSqrtDeg (dst m c)) shapeCasts_S100000_S100000x1 := by
  show StableHlo.after hostOps2 (W4 m ρ c) (Proc.devRef .tc main_v46) = _
  dsimp only [hostOps2]; after_results
  rw [W4_v14]; rfl
theorem W5_v47 : W5 m ρ c (Proc.devRef .tc main_v47) = shapeCast S1x128 (cb2 m c) shapeCasts_S128_S1x128 := by
  show StableHlo.after hostOps2 (W4 m ρ c) (Proc.devRef .tc main_v47) = _
  dsimp only [hostOps2]; after_results
  rw [W4_arg8]; rfl
theorem W5_v16 : W5 m ρ c (Proc.devRef .tc main_v16) = h0 m c := (keepH2 m ρ c (b := main_v16) (by not_written)).trans (W4_v16 m ρ c)
theorem W5_arg7 : W5 m ρ c (Proc.devRef .tc main_arg7) = cw2 m c := (keepH2 m ρ c (b := main_arg7) (by not_written)).trans (W4_arg7 m ρ c)
theorem W5_arg9 : W5 m ρ c (Proc.devRef .tc main_arg9) = w2 m c := (keepH2 m ρ c (b := main_arg9) (by not_written)).trans (W4_arg9 m ρ c)
theorem W5_arg10 : W5 m ρ c (Proc.devRef .tc main_arg10) = b2 m c := (keepH2 m ρ c (b := main_arg10) (by not_written)).trans (W4_arg10 m ρ c)

/-! ## After the third region: the second convolution layer -/

theorem W6_v48 : W6 m ρ c (Proc.devRef .tc main_v48) = x2 m c := by
  refine (W6_arr m ρ c 5).trans ?_
  refine (Region2.value (V5 m ρ) c (invSqrtDeg (dst m c)) (cb2 m c) ?_ ?_).trans ?_
  · intro r
    show W5 m ρ c (Proc.devRef .tc main_v46) (ix2 r (0 : Fin 1)) = _
    rw [W5_v46]; exact shapeCast_a_a1_apply _ _ r 0
  · intro q
    show W5 m ρ c (Proc.devRef .tc main_v47) (ix2 (0 : Fin 1) q) = _
    rw [W5_v47]; exact shapeCast_a_1a_apply _ _ 0 q
  · show post 0x3F183370#32 0x3ECF991F#32 (W5 m ρ c (Proc.devRef .tc main_v45)) (W5 m ρ c (Proc.devRef .tc main_v16)) (invSqrtDeg (dst m c))
      (W5 m ρ c (Proc.devRef .tc main_arg7)) (cb2 m c) = _
    rw [W5_v45, W5_v16, W5_arg7]
    rfl

theorem W6_arg9 : W6 m ρ c (Proc.devRef .tc main_arg9) = w2 m c := (W6_of_ne m ρ c main_arg9 (by decide)).trans (W5_arg9 m ρ c)
theorem W6_arg10 : W6 m ρ c (Proc.devRef .tc main_arg10) = b2 m c := (W6_of_ne m ρ c main_arg10 (by decide)).trans (W5_arg10 m ρ c)

/-! ## After the last stretch and the last region: the output layer -/

theorem W7_v49 : W7 m ρ c (Proc.devRef .tc main_v49) = shapeCast S1x64 (b2 m c) shapeCasts_S64_S1x64 := by
  show StableHlo.after hostOps3 (W6 m ρ c) (Proc.devRef .tc main_v49) = _
  dsimp only [hostOps3]; after_results
  rw [W6_arg10]; rfl
theorem W7_v48 : W7 m ρ c (Proc.devRef .tc main_v48) = x2 m c := (keepH3 m ρ c (b := main_v48) (by not_written)).trans (W6_v48 m ρ c)
theorem W7_arg9 : W7 m ρ c (Proc.devRef .tc main_arg9) = w2 m c := (keepH3 m ρ c (b := main_arg9) (by not_written)).trans (W6_arg9 m ρ c)

/-- THE RESULT BUFFER after the last region: the network of the eleven arguments. -/
theorem W8_v50 : W8 m ρ c (Proc.devRef .tc main_v50)
    = net (feat m c) (src m c) (dst m c) (w1 m c) (b1 m c) (cw1 m c) (cb1 m c) (cw2 m c) (cb2 m c) (w2 m c) (b2 m c) := by
  refine (W8_arr m ρ c 3).trans ?_
  refine (Region3.value (V7 m ρ) c (b2 m c) ?_).trans ?_
  · intro q
    show W7 m ρ c (Proc.devRef .tc main_v49) (ix2 (0 : Fin 1) q) = _
    rw [W7_v49]; exact shapeCast_a_1a_apply _ _ 0 q
  · show outLayer (W7 m ρ c (Proc.devRef .tc main_v48)) (W7 m ρ c (Proc.devRef .tc main_arg9)) (b2 m c) = _
    rw [W7_v48, W7_arg9]
    rfl

end Cert.KernelIdeal.KNet

end
-- ==== Proof.RefNet.lean ====
/-
  The reference program computes the network: its run's composed term, opened, is `Cert.Net.net` of the argument
  arrays, operation for operation.
-/
import proofs.«140979_j20710332301833_1_alg».proof.Proof.Gen.ReferenceIdeal.Run
import proofs.«140979_j20710332301833_1_alg».proof.Proof.Net

noncomputable section

namespace Cert.ReferenceIdeal.RefNet

open Cert.ReferenceIdeal Cert.ReferenceIdeal.Gen Idealize.ShloMosaic Idealize.ShloMosaic.TcCoe Idealize.SL.Sem

variable {F : FTy → Type} [FloatOps F]

set_option maxRecDepth 8192 in
/-- The reference's result is the network of its arguments. -/
theorem res_eq_net (m : (ℓ : Loc nD τ sig) → Buf (Elt F) ℓ) (c : Dev nD) :
    Cert.ReferenceIdeal.Value.res_out0 m c
      = Cert.Net.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  show Cert.ReferenceIdeal.Value.res_main_v99 m c = _
  unfold Cert.ReferenceIdeal.Value.res_main_v99
  rfl

end Cert.ReferenceIdeal.RefNet

end
-- ==== Proof.lean ====
/-
  The certificate: a two-layer graph network with initial residual and identity mapping, as four fused row-tiled
  kernels around the graph aggregation, against its plain reference.

  Over the extended reals both programs compute `Cert.Net.net` of the eleven arguments. The reference does so
  operation for operation (its run's composed term IS that function: RefNet). The kernel program's four regions each
  write, row block by row block, one dense or one convolution layer of the arrays they find (Region0 … Region3: the
  matrix unit's product into a zero accumulator is the same sum over `k` as the host's product, a change of float
  format is the identity, and the twenty row blocks tile the array), and the host operations between them are the
  reference's own, so the result buffer ends at the same function (KernelNet). No law of arithmetic beyond the
  re-indexing of the products' sums is used, and so the inputs' finiteness is not either. The three frames are the
  generated ones; the idealization rewrote nothing, so `preserves` is `True`.
-/
import proofs.«140979_j20710332301833_1_alg».proof.Defs
import proofs.«140979_j20710332301833_1_alg».proof.Proof.Gen.Kernel
import proofs.«140979_j20710332301833_1_alg».proof.Proof.Gen.KernelIdeal
import proofs.«140979_j20710332301833_1_alg».proof.Proof.Gen.ReferenceIdeal
import proofs.«140979_j20710332301833_1_alg».proof.Proof.Gen.Pre_finite_inputs
import proofs.«140979_j20710332301833_1_alg».proof.Proof.KernelFrameP
import proofs.«140979_j20710332301833_1_alg».proof.Proof.KernelIdealRunP
import proofs.«140979_j20710332301833_1_alg».proof.Proof.KernelNet
import proofs.«140979_j20710332301833_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer; the arguments agree. -/
theorem algebraic : Cert.algebraic_KernelIdeal_ReferenceIdeal := by
  intro m ρ m' ρ' _ hagree
  refine ⟨fun c => Cert.KernelIdeal.GenP.W8 m ρ c (Proc.devRef .tc Cert.KernelIdeal.main_v50), Cert.KernelIdeal.GenP.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  refine ((Cert.ReferenceIdeal.RefNet.res_eq_net m' c).trans ?_).trans (Cert.KernelIdeal.KNet.W8_v50 m ρ c).symm
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
